-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S4092x4092 : Shape := ⟨2, ![4092, 4092]⟩
abbrev S341x12x341x12 : Shape := ⟨4, ![341, 12, 341, 12]⟩
abbrev S_ : Shape := ⟨0, ![]⟩
abbrev S1 : Shape := ⟨1, ![1]⟩
abbrev S2 : Shape := ⟨1, ![2]⟩
abbrev S1x4096 : Shape := ⟨2, ![1, 4096]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩

abbrev nBuf : Space → Nat
  | .hbm => 21
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4092x4092, .f32⟩
  | .hbm, ⟨4, _⟩ => ⟨S341x12x341x12, .f32⟩
  | .hbm, ⟨5, _⟩ => ⟨S341x12x341x12, .f32⟩
  | .hbm, ⟨6, _⟩ => ⟨S341x12x341x12, .f32⟩
  | .hbm, ⟨7, _⟩ => ⟨S_, .f32⟩
  | .hbm, ⟨8, _⟩ => ⟨S341x12x341x12, .f32⟩
  | .hbm, ⟨9, _⟩ => ⟨S341x12x341x12, .f32⟩
  | .hbm, ⟨10, _⟩ => ⟨S4092x4092, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S4096x4096, .f32⟩
  | .hbm, ⟨17, _⟩ => ⟨S8192x4096, .bf16⟩
  | .hbm, ⟨18, _⟩ => ⟨S4096x4096, .bf16⟩
  | .hbm, ⟨19, _⟩ => ⟨S1x4096, .f32⟩
  | .hbm, ⟨20, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S4096x4096_S4092x4092_0_0 : S4096x4096.Slices ![0, 0] S4092x4092
  shapeCasts_S4092x4092_S341x12x341x12 : S4092x4092.ShapeCasts S341x12x341x12
  transposes_S341x12x341x12_S341x12x341x12_0_3_2_1 : S341x12x341x12.Transposes [0, 3, 2, 1] S341x12x341x12
  bcast_S_S341x12x341x12 : S_.BroadcastsInDim S341x12x341x12 (![] : Fin 0 → Fin S341x12x341x12.rank)
  shapeCasts_S341x12x341x12_S4092x4092 : S341x12x341x12.ShapeCasts S4092x4092
  bcast_S_S1 : S_.BroadcastsInDim S1 (![] : Fin 0 → Fin S1.rank)
  concatenates_S1_S1_S2_d0 : Shape.Concatenates [S1, S1] S2 0
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  scatter_S4096x4096_S2_S4092x4092_01_n_01_0_wf : ScatterDims.WF S4096x4096 S2 S4092x4092 [0, 1] [] [0, 1] 0
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def scatter_S4096x4096_S2_S4092x4092_01_n_01_0 : ScatterDims S4096x4096 S2 S4092x4092 where
  updateWindowDims := [0, 1]
  insertedWindowDims := []
  scatterDimsToOperandDims := [0, 1]
  indexVectorDim := 0
  wf := scatter_S4096x4096_S2_S4092x4092_01_n_01_0_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v11) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4092x4092 : Shape := ⟨2, ![4092, 4092]⟩
abbrev S341x12x341x12 : Shape := ⟨4, ![341, 12, 341, 12]⟩
abbrev S_ : Shape := ⟨0, ![]⟩
abbrev S1 : Shape := ⟨1, ![1]⟩
abbrev S2 : Shape := ⟨1, ![2]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4092x4092, .f32⟩
  | .hbm, ⟨4, _⟩ => ⟨S341x12x341x12, .f32⟩
  | .hbm, ⟨5, _⟩ => ⟨S341x12x341x12, .f32⟩
  | .hbm, ⟨6, _⟩ => ⟨S341x12x341x12, .f32⟩
  | .hbm, ⟨7, _⟩ => ⟨S_, .f32⟩
  | .hbm, ⟨8, _⟩ => ⟨S341x12x341x12, .f32⟩
  | .hbm, ⟨9, _⟩ => ⟨S341x12x341x12, .f32⟩
  | .hbm, ⟨10, _⟩ => ⟨S4092x4092, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S4096x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  slices_S4096x4096_S4092x4092_0_0 : S4096x4096.Slices ![0, 0] S4092x4092
  shapeCasts_S4092x4092_S341x12x341x12 : S4092x4092.ShapeCasts S341x12x341x12
  transposes_S341x12x341x12_S341x12x341x12_0_3_2_1 : S341x12x341x12.Transposes [0, 3, 2, 1] S341x12x341x12
  bcast_S_S341x12x341x12 : S_.BroadcastsInDim S341x12x341x12 (![] : Fin 0 → Fin S341x12x341x12.rank)
  shapeCasts_S341x12x341x12_S4092x4092 : S341x12x341x12.ShapeCasts S4092x4092
  bcast_S_S1 : S_.BroadcastsInDim S1 (![] : Fin 0 → Fin S1.rank)
  concatenates_S1_S1_S2_d0 : Shape.Concatenates [S1, S1] S2 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S4096x4096_S2_S4092x4092_01_n_01_0_wf : ScatterDims.WF S4096x4096 S2 S4092x4092 [0, 1] [] [0, 1] 0
  dot_S8192x4096_S4096x4096_S8192x4096_1_1_0_0_n_n_wf : DotDims.WF S8192x4096 S4096x4096 S8192x4096 [1] [1] [0] [0] [] []

variable [Facts₀]

def scatter_S4096x4096_S2_S4092x4092_01_n_01_0 : ScatterDims S4096x4096 S2 S4092x4092 where
  updateWindowDims := [0, 1]
  insertedWindowDims := []
  scatterDimsToOperandDims := [0, 1]
  indexVectorDim := 0
  wf := scatter_S4096x4096_S2_S4092x4092_01_n_01_0_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.LibDotRows.lean ====
/-
  A matrix product of an `M × K` operand with an `N × K` operand, BOTH contracted on their last axis (rows against
  rows: the product with the second operand transposed), into the zero accumulator, read at an entry at the ideal
  values: entry `(a, b)` is the sum over the contracted coordinate `c` of `A (a, c) · B (b, c)`. For any dimension
  numbers record whose axis lists are the stated ones (a printed record satisfies each hypothesis by `rfl`).
-/
import proofs.«178750_j25005299597540_1_alg».proof.Proof.LibDot

noncomputable section

open scoped BigOperators

namespace Cert.LibDot

open Idealize.ShloMosaic Idealize.ShloMosaic.ValueIdx

/-- Rows against rows: an `M × K` by an `N × K` operand, each contracted on its last axis. -/
theorem matmul_11_zero_apply {M K N : Nat} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![M, K]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 a c) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := rhsIdx_val_non d hlb hrb hln hrn (ix2 a b) ((contrEquiv1 d K hr hs).symm c) Nat.one_lt_two
  have r1 := (d.rhsIdx_val_of_single hrc (ix2 a b) ((contrEquiv1 d K hr hs).symm c)).trans c2
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

end Cert.LibDot

end
-- ==== Proof.Spec.lean ====
/-
  The dense layer both programs compute, as one function of three arrays, entry by entry, over the extended reals:
  for a batch of 8192 rows `x`, a 4096 × 4096 weight `w` (whatever it holds: both programs prepare it by the same
  symmetrization of 12 × 12 diagonal-mirrored blocks, which is never opened here) and a bias `b`,

      G x w b (r, o) = (∑ k < 4096, x (r, k) · w (o, k)) + b o,

  the product of `x` with the transpose of `w`, plus the bias on every row.
-/
import Idealize.ShloMosaic.Lib.ValueIdx
import Idealize.ShloMosaic.PureOps.Ideal

noncomputable section

open scoped BigOperators

namespace Cert.Linear

open Idealize.ShloMosaic Idealize.ShloMosaic.ValueIdx

/-- Entry `(r, o)` of `x · wᵀ + b`: row `r` of `x` against row `o` of `w`, summed over the 4096 input features, plus
    the bias of output feature `o`. -/
def G (x : FVec Ideal ⟨2, ![8192, 4096]⟩ .f32) (w : FVec Ideal ⟨2, ![4096, 4096]⟩ .f32) (b : FVec Ideal ⟨1, ![4096]⟩ .f32) :
    FVec Ideal ⟨2, ![8192, 4096]⟩ .f32 :=
  fun i => (∑ k : Fin 4096, x (ix2 (i 0) k) * w (ix2 (i 1) k)) + b (ix1 (i 1))

theorem G_apply (x : FVec Ideal ⟨2, ![8192, 4096]⟩ .f32) (w : FVec Ideal ⟨2, ![4096, 4096]⟩ .f32) (b : FVec Ideal ⟨1, ![4096]⟩ .f32)
    (r : Fin 8192) (o : Fin 4096) :
    G x w b (ix2 r o) = (∑ k : Fin 4096, x (ix2 r k) * w (ix2 o k)) + b (ix1 o) := rfl

end Cert.Linear

end
-- ==== Proof.Payload.lean ====
/-
  What the kernel body stores, read at an entry, at the ideal values. The body loads a 512 × 4096 block `a` of the
  batch, a 1024 × 4096 block `w` of the weight's rows and a 1 × 1024 block of the bias, multiplies `a` by `w` rows
  against rows into a zero accumulator and adds the bias row to every row of the product:

      stored (p, q) = (∑ k < 4096, a (p, k) · w (q, k)) + bias (0, q).
-/
import proofs.«178750_j25005299597540_1_alg».proof.Proof.Gen.KernelIdeal.Skeleton
import proofs.«178750_j25005299597540_1_alg».proof.Proof.LibDotRows
import Idealize.ShloMosaic.Lib.Pipeline.Value
import Idealize.ShloMosaic.Lib.ValueLayout
import proofs.«178750_j25005299597540_1_alg».proof.Proof.Spec

noncomputable section

open scoped BigOperators

namespace Cert.KernelIdeal.Body

open Cert.KernelIdeal Cert.KernelIdeal.Gen Idealize.ShloMosaic Idealize.ShloMosaic.ValueIdx

/-- Entry `(p, q)` of the block the body stores: row `p` of the batch block against row `q` of the weight block, plus
    the bias block's entry `q`. -/
theorem stored_apply (a : Vec Ideal S512x4096 .bf16) (w : Vec Ideal S1024x4096 .bf16) (bias : Vec Ideal S1x1024 .f32)
    (p : Fin 512) (q : Fin 1024) :
    k0_pay1 (F := Ideal) a w bias (ix2 p q)
      = (∑ k : Fin 4096, a (ix2 p k) * w (ix2 q k)) + bias (ix2 (0 : Fin 1) q) := by
  unfold k0_pay1
  simp only [shapeCast_self]
  rw [addf_apply, Cert.LibDot.matmul_11_zero_apply _ rfl rfl rfl rfl rfl rfl, broadcastTo_1b_ab_apply]

/-- If the loaded blocks hold, along row `p` and row `q`, the row of `X` and the row of `W` that entry `i` of the dense
    layer reads, and the bias block's entry `q` is the bias of `i`'s column, then the stored entry `(p, q)` is entry `i` of
    the dense layer of `X`, `W` and `B`. -/
theorem stored_eq_layer (X : FVec Ideal ⟨2, ![8192, 4096]⟩ .f32) (W : FVec Ideal ⟨2, ![4096, 4096]⟩ .f32)
    (B : FVec Ideal ⟨1, ![4096]⟩ .f32)
    (a : Vec Ideal S512x4096 .bf16) (w : Vec Ideal S1024x4096 .bf16) (bias : Vec Ideal S1x1024 .f32)
    (p : Fin 512) (q : Fin 1024) (i : (⟨2, ![8192, 4096]⟩ : Shape).Idx)
    (ha : ∀ k : Fin 4096, a (ix2 p k) = X (ix2 (i 0) k))
    (hw : ∀ k : Fin 4096, w (ix2 q k) = W (ix2 (i 1) k))
    (hb : bias (ix2 (0 : Fin 1) q) = B (ix1 (i 1))) :
    k0_pay1 (F := Ideal) a w bias (ix2 p q) = Cert.Linear.G X W B i := by
  rw [stored_apply, hb]
  simp only [ha, hw]
  rfl

end Cert.KernelIdeal.Body

end
-- ==== Proof.HostPrefix.lean ====
/-
  What the kernel region finds in the three arrays it stages, at the ideal values. Before the region the program
  prepares the weight (the symmetrized array, buffer `main_v10`, never opened here), narrows `x` and the prepared weight
  to bf16 — the identity on extended reals — and lays the bias out as one row of 4096 entries.
-/
import proofs.«178750_j25005299597540_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The staged batch is `x` as launched: narrowing to bf16 changes no extended real. -/
theorem batch_eq (c : Dev nD) :
    (V m c main_v11 : S8192x4096.Idx → EReal) = (m ((c : Thread nD τ).loc main_arg0) : S8192x4096.Idx → EReal) := by
  dsimp only [Gen.V, Gen.hostOps0]; after_results; funext i; rfl

/-- Narrowing an array of extended reals to bf16 leaves it as it is. -/
theorem narrow_id {s : Shape} (a : FVec Ideal s .f32) (h : FTy.bits .bf16 < FTy.bits .f32) :
    (truncf .bf16 a h : FVec Ideal s .bf16) = a := funext fun i => truncf_apply a h i

/-- The prepared weight: what the program's preparation (the block symmetrization of the weight argument) leaves in
    `main_v10` before the region. The tiles only ever read it entry by entry. -/
def prepared (c : Dev nD) : S4096x4096.Idx → EReal := V m c main_v10

/-- The staged weight is the prepared weight, narrowed likewise: the preparation is the same text on both sides and is
    not looked into. -/
theorem weight_eq (c : Dev nD) :
    (V m c main_v12 : S4096x4096.Idx → EReal) = prepared m c := by
  have e : (V m c main_v12 : S4096x4096.Idx → EReal)
      = truncf (F := Ideal) .bf16 (V m c main_v10 : FVec Ideal S4096x4096 .f32) bitsLt_bf16_f32 := by
    dsimp only [Gen.V, Gen.hostOps0]; after_results
  rw [e]
  exact narrow_id _ _

/-- The staged bias is the bias laid out as one row. -/
theorem bias_eq (c : Dev nD) :
    (V m c main_v13 : S1x4096.Idx → EReal)
      = shapeCast S1x4096 (m ((c : Thread nD τ).loc main_arg2) : S4096.Idx → EReal) shapeCasts_S4096_S1x4096 := by
  dsimp only [Gen.V, Gen.hostOps0]; after_results; rfl

/-- Entry `o` of that one row is the bias of output feature `o`. -/
theorem bias_row_apply (c : Dev nD) (o : Fin 4096) :
    (V m c main_v13 : S1x4096.Idx → EReal) (ix2 (0 : Fin 1) o) = (m ((c : Thread nD τ).loc main_arg2) : S4096.Idx → EReal) (ix1 o) := by
  rw [bias_eq]
  refine shapeCast_apply _ shapeCasts_S4096_S1x4096 (ix2 (0 : Fin 1) o) (ix1 o) ?_
  rw [Shape.rowMajor_val_one, Shape.rowMajor_val_two]
  show o.val = 0 * 4096 + o.val
  omega

end Cert.KernelIdeal.Entry

end
-- ==== Proof.Tiles.lean ====
/-
  From the 64 blocks to the whole array. The grid is 16 × 4; point `t`, with output block indices `(bi, bj)`, stages
  rows `512·bi …` of the batch (all 4096 columns), rows `1024·bj …` of the prepared weight (all 4096 columns) and
  entries `1024·bj …` of the bias row, and writes back the 512 × 1024 block `(bi, bj)` of the result. So entry `(p, q)`
  of what point `t` writes back is

      (∑ k < 4096, x (512·bi + p, k) · w (1024·bj + q, k)) + b (1024·bj + q),

  which is entry `(512·bi + p, 1024·bj + q)` of the dense layer `G x w b`; the 64 blocks tile the 8192 × 4096 result
  (the block holding entry `(r, o)` is `(r / 512, o / 1024)`), so after the run the result array is `G x w b`, with `w` the
  prepared weight as the region found it.
-/
import proofs.«178750_j25005299597540_1_alg».proof.Proof.Gen.KernelIdeal.Value
import proofs.«178750_j25005299597540_1_alg».proof.Proof.Payload
import proofs.«178750_j25005299597540_1_alg».proof.Proof.HostPrefix
import proofs.«178750_j25005299597540_1_alg».proof.Proof.Spec

set_option maxRecDepth 16384

noncomputable section

open scoped BigOperators

namespace Cert.KernelIdeal.Tiles

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The dense layer of the launched batch and bias and the prepared weight. -/
abbrev layer (c : Dev nD) : S8192x4096.Idx → EReal :=
  Cert.Linear.G (m ((c : Thread nD τ).loc main_arg0)) (Entry.prepared m c) (m ((c : Thread nD τ).loc main_arg2))

/-- The printed index maps, decided over the 64 points: the batch window moves with the output's row block and the
    weight and bias windows with its column block; every other block index is zero. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2) :=
  (by decide +kernel : ∀ t : Fin grid0.N, _)

/-- Every one of the 16 × 4 output blocks is some point's. -/
theorem idx_onto : ∀ (q0 : Fin 16) (q1 : Fin 4), ∃ t : Fin cfg0.N, win0_3.index t = ![q0.val, q1.val] :=
  (by decide +kernel : ∀ (q0 : Fin 16) (q1 : Fin 4), ∃ t : Fin grid0.N, win0_3.index t = ![q0.val, q1.val])

/-! ## The input blocks at a point, read at an entry -/

/-- Row `p` of the batch block at point `t` is the launched batch's row of the output entry `(p, q)`'s place. -/
theorem batch_block (c : Dev nD) (t : Fin cfg0.N) (p : Fin 512) (q : Fin 1024) (k : Fin 4096) :
    (iblk m c 0 t : S512x4096.Idx → EReal) (ix2 p k)
      = (m ((c : Thread nD τ).loc main_arg0) : S8192x4096.Idx → EReal)
          (ix2 ((((cfg0.win 3).blk t).view.emb (ix2 p q)) 0) k) := by
  obtain ⟨e0, e1, e2, e3, e4, e5⟩ := idx_facts t
  show (V m c main_v11 : S8192x4096.Idx → EReal) (((cfg0.win 0).blk t).view.emb (ix2 p k)) = _
  rw [Entry.batch_eq]
  have h : ((cfg0.win 0).blk t).view.emb (ix2 p k) = ix2 ((((cfg0.win 3).blk t).view.emb (ix2 p q)) 0) k := by
    funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 4096 + 1 * k.val = k.val; omega
  exact congrArg (m ((c : Thread nD τ).loc main_arg0) : S8192x4096.Idx → EReal) h

/-- Window 1's block at point `t`, read at entry `(q, k)`, whatever the buffers hold: it is the entry of the window's
    array (buffer `main_v12`) at the block's place. The fact is about the window's geometry alone, so it is stated
    for any contents `A`. -/
theorem weight_window_read (c : Dev nD) (A : (b : Ref sig .tc) → Buf (Elt Ideal) ((c : Thread nD τ).loc b))
    (t : Fin cfg0.N) (q : Fin 1024) (k : Fin 4096) :
    (((cfg0.win 1).blk t).view.read (Elt Ideal) (A (Pipeline.arrRef spec0 1)) : S1024x4096.Idx → EReal) (ix2 q k)
      = (A main_v12 : S4096x4096.Idx → EReal) (((cfg0.win 1).blk t).view.emb (ix2 q k)) := rfl

/-- Row `q` of the weight block at point `t` is the prepared weight's row of the output entry's column. -/
theorem weight_block (c : Dev nD) (t : Fin cfg0.N) (p : Fin 512) (q : Fin 1024) (k : Fin 4096) :
    (iblk m c 1 t : S1024x4096.Idx → EReal) (ix2 q k)
      = Entry.prepared m c (ix2 ((((cfg0.win 3).blk t).view.emb (ix2 p q)) 1) k) := by
  obtain ⟨e0, e1, e2, e3, e4, e5⟩ := idx_facts t
  unfold iblk
  refine (weight_window_read c (V m c) t q k).trans ?_
  rw [Entry.weight_eq]
  have h : ((cfg0.win 1).blk t).view.emb (ix2 q k) = ix2 ((((cfg0.win 3).blk t).view.emb (ix2 p q)) 1) k := by
    funext a; apply Fin.ext
    match a with
    | ⟨0, _⟩ => show win0_1.index t (0 : Fin 2) * 1024 + 1 * q.val = win0_3.index t (1 : Fin 2) * 1024 + 1 * q.val; omega
    | ⟨1, _⟩ => show win0_1.index t (1 : Fin 2) * 4096 + 1 * k.val = k.val; omega
  exact congrArg (Entry.prepared m c) h

/-- Entry `q` of the bias block at point `t` is the bias of the output entry's column. -/
theorem bias_block (c : Dev nD) (t : Fin cfg0.N) (p : Fin 512) (q : Fin 1024) :
    (iblk m c 2 t : S1x1024.Idx → EReal) (ix2 (0 : Fin 1) q)
      = (m ((c : Thread nD τ).loc main_arg2) : S4096.Idx → EReal) (ix1 ((((cfg0.win 3).blk t).view.emb (ix2 p q)) 1)) := by
  obtain ⟨e0, e1, e2, e3, e4, e5⟩ := idx_facts t
  show (V m c main_v13 : S1x4096.Idx → EReal) (((cfg0.win 2).blk t).view.emb (ix2 (0 : Fin 1) q)) = _
  have h : ((cfg0.win 2).blk t).view.emb (ix2 (0 : Fin 1) q)
      = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  exact (congrArg (V m c main_v13 : S1x4096.Idx → EReal) h).trans (Entry.bias_row_apply m c _)

/-! ## What a point writes back, the cover, the array -/

/-- WHAT POINT `t` WRITES BACK is block `t` of the dense layer. -/
theorem flushed_eq (c : Dev nD) (t : Fin cfg0.N) :
    (dats m 0 c).flushed 3 t = ((cfg0.win 3).blk t).view.read (Elt Ideal) (layer m c) := by
  rw [Value.flushed3]
  unfold out0_3
  rw [View.canon_unit_zero zero_offsets]
  simp only [View.ld_unit_zero (S := S512x4096) zero_offsets, View.ld_unit_zero (S := S1024x4096) zero_offsets,
    View.ld_unit_zero (S := S1x1024) zero_offsets]
  funext j
  obtain ⟨p, q, rfl⟩ : ∃ (p : Fin 512) (q : Fin 1024), j = ix2 p q := ⟨j 0, j 1, eq_ix2 j⟩
  show k0_pay1 (F := Ideal) (iblk m c 0 t) (iblk m c 1 t) (iblk m c 2 t) (ix2 p q)
    = layer m c (((cfg0.win 3).blk t).view.emb (ix2 p q))
  exact Body.stored_eq_layer (m ((c : Thread nD τ).loc main_arg0)) (Entry.prepared m c) (m ((c : Thread nD τ).loc main_arg2))
    (iblk m c 0 t) (iblk m c 1 t) (iblk m c 2 t) p q (((cfg0.win 3).blk t).view.emb (ix2 p q))
    (fun k => batch_block m c t p q k) (fun k => weight_block m c t p q k) (bias_block m c t p q)

/-- An entry of the result is in point `t`'s block iff each coordinate is in the block's range on its axis. -/
theorem mem_blk (t : Fin cfg0.N) (i : S8192x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v14).slice (win0_3.rect t)).set ↔ _
  rw [View.set_slice_whole, Rect.mem_set_unit]
  exact Iff.rfl

/-- Every entry `(r, o)` of the result is in the block of the point with block indices `(r / 512, o / 1024)`. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE RESULT ARRAY after the run is the dense layer. -/
theorem final (c : Dev nD) : (dats m 0 c).arrAt 3 cfg0.N = layer m c :=
  (dats m 0 c).arrAt_eq_of_cover 3 (layer m c) (fun t _ => flushed_eq m c t) cover

/-- The kernel's run, read: the result array ends at the dense layer, the arguments unchanged. -/
theorem run : θ_run defs (onTc (τ := τ) (main (F := Ideal))) ⟨m, fun _ => 0, ρ⟩ fun r => ∀ c : Dev nD,
      r.2.mem ((c : Thread nD τ).loc main_v14) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Tiles

end
-- ==== Proof.RefIsG.lean ====
/-
  The reference's result is the dense layer `G` of its arguments: its last stage adds, entry by entry, the product of
  `x` with the prepared weight contracted over the 4096 input features (rows against rows) and the bias spread over the
  8192 rows. The prepared weight — the symmetrization the reference computes from its second argument — stays the
  unopened stage `val_main_v10`.
-/
import proofs.«178750_j25005299597540_1_alg».proof.Proof.Gen.ReferenceIdeal.Read
import proofs.«178750_j25005299597540_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The left factor of term `k` of entry `i` sits at row `i 0`, column `k` of `x`. -/
theorem left_idx (i : S8192x4096.Idx) (k : Fin 4096) : lidx_main_v11 i k = ix2 (i 0) k :=
  funext fun a => Fin.ext (by match a with | ⟨0, _⟩ => rfl | ⟨1, _⟩ => rfl)

/-- The right factor sits at row `i 1`, column `k` of the weight: the weight is contracted on its columns. -/
theorem right_idx (i : S8192x4096.Idx) (k : Fin 4096) : ridx_main_v11 i k = ix2 (i 1) k :=
  funext fun a => Fin.ext (by match a with | ⟨0, _⟩ => rfl | ⟨1, _⟩ => rfl)

/-- The bias spread to a row and then over all rows is read, at entry `i`, at output feature `i 1`. -/
theorem bias_idx (i : S8192x4096.Idx) : idx_main_v12 (idx_main_v13 i) = ix1 (i 1) :=
  funext fun a => Fin.ext (by match a with | ⟨0, _⟩ => rfl)

/-- The reference's result stage is `G` of `x`, the prepared weight and the bias. -/
theorem result_is_G (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v14 (F := Ideal) x0 x1 x2 = Cert.Linear.G x0 (val_main_v10 (F := Ideal) x1) x2 := by
  funext i
  rw [val_main_v14_apply, val_main_v11_apply, val_main_v13_apply, val_main_v12_apply]
  simp only [left_idx, right_idx, bias_idx, Ideal.addf_def]
  rfl

end Cert.ReferenceIdeal.RefValue

end
-- ==== Proof.WeightPrep.lean ====
/-
  Both programs prepare the weight by the same operations of the same argument: the leading 4092 × 4092 corner is cut
  into 341 × 341 blocks of 12 × 12, each block averaged with its mirror image, and the result written back over the
  corner, the last four rows and columns left as they were. The kernel's program leaves it in its buffer `main_v10`
  before the region; the reference's is its stage `val_main_v10`. The two are one term, operation by operation; what
  the operations compute is not looked into.
-/
import proofs.«178750_j25005299597540_1_alg».proof.Proof.HostPrefix
import proofs.«178750_j25005299597540_1_alg».proof.Proof.Gen.ReferenceIdeal.Read
import Idealize.ShloMosaic.Lib.StableHlo.Run

noncomputable section

namespace Cert.WeightPrep

open Idealize.ShloMosaic Idealize.ShloMosaic.TcCoe Idealize.SL.Sem Idealize.ShloMosaic.StableHlo

/-- The weight as the kernel's region finds it prepared is the reference's prepared weight of the same launched
    argument. -/
theorem prepared_eq (m : (ℓ : Loc Cert.KernelIdeal.nD Cert.KernelIdeal.τ Cert.KernelIdeal.sig) → Buf (Elt Ideal) ℓ)
    (c : Dev Cert.KernelIdeal.nD) :
    Cert.KernelIdeal.Entry.prepared m c
      = Cert.ReferenceIdeal.Read.val_main_v10 (F := Ideal)
          (m ((c : Thread Cert.KernelIdeal.nD Cert.KernelIdeal.τ).loc Cert.KernelIdeal.main_arg1)) := by
  unfold Cert.KernelIdeal.Entry.prepared
  dsimp only [Cert.KernelIdeal.Gen.V, Cert.KernelIdeal.Gen.hostOps0]; after_results; rfl

end Cert.WeightPrep

end
-- ==== Proof.lean ====
/-
  A dense layer with a symmetrized weight, as a tiled kernel and as an einsum.

  Both programs first prepare the weight `w` from the 4096 × 4096 argument by the same operations: the leading
  4092 × 4092 corner, seen as 341 × 341 blocks of 12 × 12, has every block averaged with its mirror image
  (`0.5 · (B + Bᵀ)`), and is written back over the corner; the last four rows and columns stay. That preparation is one
  term in both programs and is never opened (Proof/WeightPrep.lean).

  The reference then computes `x · wᵀ + b` in one contraction over the 4096 input features and a bias spread over the
  8192 rows (Proof/RefIsG.lean). The kernel narrows `x` and `w` to bf16 — the identity on extended reals —, lays `b` out
  as a row, and on a 16 × 4 grid computes each 512 × 1024 block of the result as the product of 512 rows of `x` with
  1024 rows of `w`, rows against rows over all 4096 columns at once, plus the matching 1024 bias entries
  (Proof/Payload.lean); the 64 blocks tile the result (Proof/Tiles.lean). Entry by entry both are

      (∑ k < 4096, x (r, k) · w (o, k)) + b o          (Proof/Spec.lean),

  the same sum of the same products in the same order, so no law of the extended reals beyond reading the two programs
  is used and the inputs' finiteness is never opened. The idealization rewrote no operation, so `preserves` states
  nothing; the frames are the generated ones, the reference's being its generated run with the result dropped.
-/
import proofs.«178750_j25005299597540_1_alg».proof.Defs
import proofs.«178750_j25005299597540_1_alg».proof.Proof.Gen.Kernel
import proofs.«178750_j25005299597540_1_alg».proof.Proof.Gen.Kernel.Skeleton
import proofs.«178750_j25005299597540_1_alg».proof.Proof.Gen.Kernel.Launch
import proofs.«178750_j25005299597540_1_alg».proof.Proof.Gen.Kernel.Points
import proofs.«178750_j25005299597540_1_alg».proof.Proof.Gen.Kernel.Frame
import proofs.«178750_j25005299597540_1_alg».proof.Proof.Gen.KernelIdeal
import proofs.«178750_j25005299597540_1_alg».proof.Proof.Gen.KernelIdeal.Skeleton
import proofs.«178750_j25005299597540_1_alg».proof.Proof.Gen.KernelIdeal.Launch
import proofs.«178750_j25005299597540_1_alg».proof.Proof.Gen.KernelIdeal.Points
import proofs.«178750_j25005299597540_1_alg».proof.Proof.Gen.KernelIdeal.Frame
import proofs.«178750_j25005299597540_1_alg».proof.Proof.Gen.ReferenceIdeal
import proofs.«178750_j25005299597540_1_alg».proof.Proof.Gen.Pre_finite_inputs
import proofs.«178750_j25005299597540_1_alg».proof.Proof.Gen.KernelIdeal.Value
import proofs.«178750_j25005299597540_1_alg».proof.Proof.Gen.ReferenceIdeal.Run
import proofs.«178750_j25005299597540_1_alg».proof.Proof.Gen.ReferenceIdeal.Read
import proofs.«178750_j25005299597540_1_alg».proof.Proof.Tiles
import proofs.«178750_j25005299597540_1_alg».proof.Proof.RefIsG
import proofs.«178750_j25005299597540_1_alg».proof.Proof.WeightPrep
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x`, the weight argument and `b`, the kernel's result array ends at the dense layer of
    `x`, its prepared weight and `b` (the tiles), and the reference's at the dense layer of its own arguments and its
    prepared weight; the arguments agree and the two preparations are one term, so the results are equal entry by
    entry. -/
theorem algebraic : Cert.algebraic_KernelIdeal_ReferenceIdeal := by
  intro m ρ m' ρ' _ hagree
  refine ⟨fun c => Cert.KernelIdeal.Tiles.layer m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_is_G,
    (hagree c).1, (hagree c).2.1, (hagree c).2.2, ← Cert.WeightPrep.prepared_eq m c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
